-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 87
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostChain.lean ====
/-
  The host operations of the idealized kernel's @main around its six pallas_calls are, operation for operation,
  the reference's: the two edge lists with the self loops appended, the in-degree by scatter-add of ones, the
  normalisation deg^(-1/2) (zero where the degree is not positive) gathered at both endpoints of every edge and
  multiplied (all before the first call); and, after each of the two matrix products, the product's rows gathered at
  the edges' sources, scaled by the edge's normalisation and scatter-added at the destinations.
  Here each stretch is read, from ANY contents `W` of the buffers at its entry, as the reference's stage of the same
  operation applied to what `W` holds — the stages being the reference's own operations one at a time, the two sides
  agree by unfolding names, whatever the float family. Also: which buffers a stretch writes, so that every other
  buffer is seen to keep its contents across it.
-/
import proofs.«166528_j45346264711451_1_alg».proof.Proof.Gen.KernelIdeal.Launch
import proofs.«166528_j45346264711451_1_alg».proof.Proof.RefRead
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem
open Cert.ReferenceIdeal.ReadP (val_main_v3 val_main_v6 val_main_v29 val_main_v30 val_main_v43 val_main_v48 val_main_v61)

variable {F : FTy → Type} [FloatOps F]

/-! ## What each stretch writes, and what it therefore keeps -/

/-- The buffers the operations of `hostOps0` write. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0` does not write keeps its contents across it. -/
theorem keep0 (W : Valuation τ sig (Elt F)) (r : Ref sig .tc) (h : r ∉ wr0) :
    StableHlo.after hostOps0 W (Proc.devRef .tc r) = W (Proc.devRef .tc r) :=
  StableHlo.after_of_writes_sub hostOps0 W writes0 h

/-- The buffers the operations of `hostOps1` write. -/
abbrev wr1 : List (Ref sig .tc) := [main_c_6, main_v31, main_v32, main_c_7, main_v33, main_v34, main_v35, main_v36, main_v37, main_v38, main_v39, main_v40, main_cst_8, main_v41, main_v42, main_v43]
theorem writes1 : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1` does not write keeps its contents across it. -/
theorem keep1 (W : Valuation τ sig (Elt F)) (r : Ref sig .tc) (h : r ∉ wr1) :
    StableHlo.after hostOps1 W (Proc.devRef .tc r) = W (Proc.devRef .tc r) :=
  StableHlo.after_of_writes_sub hostOps1 W writes1 h

/-- The buffers the operations of `hostOps3` write. -/
abbrev wr3 : List (Ref sig .tc) := [main_c_9, main_v46, main_v47, main_c_10, main_v48, main_v49, main_v50, main_v51, main_v52, main_v53, main_v54, main_v55, main_cst_11, main_v56, main_v57, main_v58]
theorem writes3 : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps3` does not write keeps its contents across it. -/
theorem keep3 (W : Valuation τ sig (Elt F)) (r : Ref sig .tc) (h : r ∉ wr3) :
    StableHlo.after hostOps3 W (Proc.devRef .tc r) = W (Proc.devRef .tc r) :=
  StableHlo.after_of_writes_sub hostOps3 W writes3 h

/-- The buffers the operations of `hostOps0_1` write. -/
abbrev wr0_1 : List (Ref sig .tc) := [main_call0_v0, main_call0_v1, main_v14]
theorem writes0_1 : (hostOps0_1 : List (HloOp τ sig (Elt F))).Forall fun op => op.writes ⊆ (wr0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_1` does not write keeps its contents across it. -/
theorem keep0_1 (W : Valuation τ sig (Elt F)) (r : Ref sig .tc) (h : r ∉ wr0_1) :
    StableHlo.after hostOps0_1 W (Proc.devRef .tc r) = W (Proc.devRef .tc r) :=
  StableHlo.after_of_writes_sub hostOps0_1 W writes0_1 h

/-- The buffers the operations of `hostOps0_2` write. -/
abbrev wr0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : (hostOps0_2 : List (HloOp τ sig (Elt F))).Forall fun op => op.writes ⊆ (wr0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_2` does not write keeps its contents across it. -/
theorem keep0_2 (W : Valuation τ sig (Elt F)) (r : Ref sig .tc) (h : r ∉ wr0_2) :
    StableHlo.after hostOps0_2 W (Proc.devRef .tc r) = W (Proc.devRef .tc r) :=
  StableHlo.after_of_writes_sub hostOps0_2 W writes0_2 h

/-! ## The stretches before the first call: the edge lists and the edges' normalisation -/

/-- The source list with the self loops appended, as a function of the edge array. -/
theorem src_eq (W : Valuation τ sig (Elt F)) :
    StableHlo.after hostOps0 W (Proc.devRef .tc main_v3) = val_main_v3 (F := F) (W (Proc.devRef .tc main_arg1)) := by
  dsimp only [hostOps0]
  after_results
  rfl

/-- The destination list with the self loops appended, as a function of the edge array. -/
theorem dst_eq (W : Valuation τ sig (Elt F)) :
    StableHlo.after hostOps0 W (Proc.devRef .tc main_v6) = val_main_v6 (F := F) (W (Proc.devRef .tc main_arg1)) := by
  dsimp only [hostOps0]
  after_results
  rfl

set_option maxHeartbeats 4000000 in
/-- The edges' normalisation dinv[src] · dinv[dst], as a function of the edge array. -/
theorem norm_eq (W : Valuation τ sig (Elt F)) :
    StableHlo.after hostOps0_2 (StableHlo.after hostOps0_1 (StableHlo.after hostOps0 W)) (Proc.devRef .tc main_v29)
      = val_main_v29 (F := F) (W (Proc.devRef .tc main_arg1)) := by
  dsimp only [hostOps0, hostOps0_1, hostOps0_2]
  after_results_simp
  rfl

/-! ## Gather at the sources, scale, scatter-add at the destinations -/

set_option maxHeartbeats 4000000 in
/-- After the first matrix product: from contents holding the product, the edge lists and the normalisation at the
    reference's stages, the stretch leaves the reference's aggregated array. -/
theorem agg1_eq (W : Valuation τ sig (Elt F)) (x0 : (⟨S100000x128, .f32⟩ : BufTy).Contents (Elt F))
    (x1 : (⟨S2x1600000, .i32⟩ : BufTy).Contents (Elt F)) (x3 : (⟨S128x128, .f32⟩ : BufTy).Contents (Elt F))
    (h30 : W (Proc.devRef .tc main_v30) = val_main_v30 (F := F) x0 x3)
    (h3 : W (Proc.devRef .tc main_v3) = val_main_v3 (F := F) x1)
    (h6 : W (Proc.devRef .tc main_v6) = val_main_v6 (F := F) x1)
    (h29 : W (Proc.devRef .tc main_v29) = val_main_v29 (F := F) x1) :
    StableHlo.after hostOps1 W (Proc.devRef .tc main_v43) = val_main_v43 (F := F) x0 x1 x3 := by
  dsimp only [hostOps1]
  after_results_simp
  rw [h30, h3, h6, h29]
  rfl

set_option maxHeartbeats 4000000 in
/-- After the second matrix product, the same stretch on the second layer's product. -/
theorem agg2_eq (W : Valuation τ sig (Elt F)) (x0 : (⟨S100000x128, .f32⟩ : BufTy).Contents (Elt F))
    (x1 : (⟨S2x1600000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (h45 : W (Proc.devRef .tc main_v45) = val_main_v48 (F := F) x0 x1 x3 x4 x5)
    (h3 : W (Proc.devRef .tc main_v3) = val_main_v3 (F := F) x1)
    (h6 : W (Proc.devRef .tc main_v6) = val_main_v6 (F := F) x1)
    (h29 : W (Proc.devRef .tc main_v29) = val_main_v29 (F := F) x1) :
    StableHlo.after hostOps3 W (Proc.devRef .tc main_v58) = val_main_v61 (F := F) x0 x1 x3 x4 x5 := by
  dsimp only [hostOps3]
  after_results_simp
  rw [h45, h3, h6, h29]
  rfl

end Cert.KernelIdeal.HostChain

end
-- ==== Proof.Linear0.lean ====
/-
  Region 0 of the idealized kernel's @main: a row-tiled matrix product. Each of the 20 grid points reads rows
  5000·t … 5000·t + 4999 of the left array (a 5000×128 block), the whole 128×128 right array, and writes the
  same rows of the output: entry (r, n) of the block is the sum over k of left(r, k) · right(k, n), the rounding
  to bf16 on the way in being the identity on the extended reals and the accumulator starting from zero.
  Hence the output array, once every point has written its rows back, is the plain product of the two arrays,
  index by index — stated here for ANY contents `V` of the buffers at the region's entry.
-/
import proofs.«166528_j45346264711451_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear0

open Cert.KernelIdeal Cert.KernelIdeal.Gen
open Idealize.ShloMosaic Idealize.ShloMosaic.TcCoe Idealize.SL.Sem
open Idealize.ShloMosaic.Pipeline (Dat Cfg Window)

/-! ## The product of a 5000×128 block with the 128×128 array, at an index -/

/-- Entry (row of `j`, `k`) of the left block. -/
abbrev lblk (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right array. -/
abbrev rblk (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `j` of its block: the sum over the contracted axis of the products. -/
theorem pay (x : FVec Ideal S5000x128 .f32) (w : FVec Ideal S128x128 .f32) (j : S5000x128.Idx) :
    k0_pay1 (F := Ideal) x w j = ∑ k : Fin 128, x (lblk j k) * w (rblk j k) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lblk j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rblk j k := funext fun a => Fin.ext (by
    match a with
    | ⟨0, _⟩ => exact (rhs_0 _ _).trans hk
    | ⟨1, _⟩ => exact rhs_1 _ _)
  rw [el, er]
  -- the rounding to bf16 is the identity here; a same-shape cast in front of it, where the body has one, too
  first | rfl | (rw [shapeCast_self]; rfl)

/-! ## The whole arrays' product -/

/-- Entry (row of `i`, `k`) of the left array. -/
abbrev lrow (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of the right array. -/
abbrev rcol (i : S100000x128.Idx) (k : Fin 128) : S128x128.Idx := fun a => match a with
  | ⟨0, _⟩ => ⟨k.val, k.isLt⟩
  | ⟨1, _⟩ => ⟨(i 1).val, (i 1).isLt⟩

/-- The product of a 100000×128 array with a 128×128 array, index by index. -/
def prod (X : FVec Ideal S100000x128 .f32) (Wt : FVec Ideal S128x128 .f32) : FVec Ideal S100000x128 .f32 :=
  fun i => ∑ k : Fin 128, X (lrow i k) * Wt (rcol i k)

theorem hz : (![0, 0] : Fin 2 → Nat) = fun _ => 0 := funext fun a => by fin_cases a <;> rfl

/-- The printed index maps over the grid: the left and the output windows move together down the rows and stay at
    column block 0; the right window stays at block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- The left array as the region finds it. -/
abbrev XA (c : Dev nD) : FVec Ideal S100000x128 .f32 := V c main_arg0
/-- The right array as the region finds it. -/
abbrev WA (c : Dev nD) : FVec Ideal S128x128 .f32 := V c main_arg3

/-- What point `t` writes back is its block of the two arrays' product. -/
theorem flushed_eq (c : Dev nD) (t : Fin cfg0.N) :
    (dat0 V c).flushed 2 t = ((cfg0.win 2).blk t).view.read (Elt Ideal) (prod (XA V c) (WA V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = prod (XA V c) (WA V c) (((cfg0.win 2).blk t).view.emb j)
  refine (pay _ _ j).trans ?_
  unfold prod
  refine Finset.sum_congr rfl fun k _ => ?_
  show XA V c (((cfg0.win 0).blk t).view.emb (lblk j k)) * WA V c (((cfg0.win 1).blk t).view.emb (rblk j k))
    = XA V c (lrow (((cfg0.win 2).blk t).view.emb j) k) * WA V c (rcol (((cfg0.win 2).blk t).view.emb j) k)
  have h0 : ((cfg0.win 0).blk t).view.emb (lblk j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rblk j k) = rcol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty row blocks cover the output array: row `r` is in the block of point `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the product of the two input arrays as the region found them. -/
theorem value (c : Dev nD) : (dat0 V c).arrAt 2 cfg0.N = prod (XA V c) (WA V c) :=
  (dat0 V c).arrAt_eq_of_cover 2 _ (fun t _ => flushed_eq V c t) cover

end Cert.KernelIdeal.Linear0

end
-- ==== Proof.Linear2.lean ====
/-
  Region 2 of the idealized kernel's @main: a row-tiled matrix product. Each of the 20 grid points reads rows
  5000·t … 5000·t + 4999 of the left array (a 5000×128 block), the whole 128×128 right array, and writes the
  same rows of the output: entry (r, n) of the block is the sum over k of left(r, k) · right(k, n), the rounding
  to bf16 on the way in being the identity on the extended reals and the accumulator starting from zero.
  Hence the output array, once every point has written its rows back, is the plain product of the two arrays,
  index by index — stated here for ANY contents `V` of the buffers at the region's entry.
-/
import proofs.«166528_j45346264711451_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.SL.Sem
open Idealize.ShloMosaic.Pipeline (Dat Cfg Window)

/-! ## The product of a 5000×128 block with the 128×128 array, at an index -/

/-- Entry (row of `j`, `k`) of the left block. -/
abbrev lblk (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right array. -/
abbrev rblk (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `j` of its block: the sum over the contracted axis of the products. -/
theorem pay (x : FVec Ideal S5000x128 .f32) (w : FVec Ideal S128x128 .f32) (j : S5000x128.Idx) :
    k2_pay1 (F := Ideal) x w j = ∑ k : Fin 128, x (lblk j k) * w (rblk j k) := by
  unfold k2_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lblk j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rblk j k := funext fun a => Fin.ext (by
    match a with
    | ⟨0, _⟩ => exact (rhs_0 _ _).trans hk
    | ⟨1, _⟩ => exact rhs_1 _ _)
  rw [el, er]
  -- the rounding to bf16 is the identity here; a same-shape cast in front of it, where the body has one, too
  first | rfl | (rw [shapeCast_self]; rfl)

/-! ## The whole arrays' product -/

/-- Entry (row of `i`, `k`) of the left array. -/
abbrev lrow (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of the right array. -/
abbrev rcol (i : S100000x128.Idx) (k : Fin 128) : S128x128.Idx := fun a => match a with
  | ⟨0, _⟩ => ⟨k.val, k.isLt⟩
  | ⟨1, _⟩ => ⟨(i 1).val, (i 1).isLt⟩

/-- The product of a 100000×128 array with a 128×128 array, index by index. -/
def prod (X : FVec Ideal S100000x128 .f32) (Wt : FVec Ideal S128x128 .f32) : FVec Ideal S100000x128 .f32 :=
  fun i => ∑ k : Fin 128, X (lrow i k) * Wt (rcol i k)

theorem hz : (![0, 0] : Fin 2 → Nat) = fun _ => 0 := funext fun a => by fin_cases a <;> rfl

/-- The printed index maps over the grid: the left and the output windows move together down the rows and stay at
    column block 0; the right window stays at block (0, 0). -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row block is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

variable (V : (c : Dev nD) → (b : Ref sig .tc) → Buf (Elt Ideal) ((c : Thread nD τ).loc b))

/-- The left array as the region finds it. -/
abbrev XA (c : Dev nD) : FVec Ideal S100000x128 .f32 := V c main_v44
/-- The right array as the region finds it. -/
abbrev WA (c : Dev nD) : FVec Ideal S128x128 .f32 := V c main_arg5

/-- What point `t` writes back is its block of the two arrays' product. -/
theorem flushed_eq (c : Dev nD) (t : Fin cfg2.N) :
    (dat2 V c).flushed 2 t = ((cfg2.win 2).blk t).view.read (Elt Ideal) (prod (XA V c) (WA V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j = prod (XA V c) (WA V c) (((cfg2.win 2).blk t).view.emb j)
  refine (pay _ _ j).trans ?_
  unfold prod
  refine Finset.sum_congr rfl fun k _ => ?_
  show XA V c (((cfg2.win 0).blk t).view.emb (lblk j k)) * WA V c (((cfg2.win 1).blk t).view.emb (rblk j k))
    = XA V c (lrow (((cfg2.win 2).blk t).view.emb j) k) * WA V c (rcol (((cfg2.win 2).blk t).view.emb j) k)
  have h0 : ((cfg2.win 0).blk t).view.emb (lblk j k) = lrow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (rblk j k) = rcol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the output array is in point `t`'s block iff each coordinate is in the block's range. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- The twenty row blocks cover the output array: row `r` is in the block of point `r / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE OUTPUT ARRAY after the region: the product of the two input arrays as the region found them. -/
theorem value (c : Dev nD) : (dat2 V c).arrAt 2 cfg2.N = prod (XA V c) (WA V c) :=
  (dat2 V c).arrAt_eq_of_cover 2 _ (fun t _ => flushed_eq V c t) cover

end Cert.KernelIdeal.Linear2

end
-- ==== Proof.Linear4.lean ====
/-
  Region 4 of the idealized kernel's @main: a row-tiled matrix product. Each of the 20 grid points reads rows
  5000·t … 5000·t + 4999 of the left array (a 5000×128 block), the whole 128×128 right array, and writes the
  same rows of the output: entry (r, n) of the block is the sum over k of left(r, k) · right(k, n), the rounding
  to bf16 on the way in being the identity on the extended reals and the accumulator starting from zero.
  Hence the output array, once every point has written its rows back, is the plain product of the two arrays,
  index by index — stated here for ANY contents `V` of the buffers at the region's entry.
-/
import proofs.«166528_j45346264711451_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear4

open Cert.KernelIdeal Cert.KernelIdeal.Gen
open Idealize.ShloMosaic Idealize.ShloMosaic.TcCoe Idealize.SL.Sem
open Idealize.ShloMosaic.Pipeline (Dat Cfg Window)

/-! ## The product of a 5000×128 block with the 128×128 array, at an index -/

/-- Entry (row of `j`, `k`) of the left block. -/
abbrev lblk (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right array. -/
abbrev rblk (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `j` of its block: the sum over the contracted axis of the products. -/
theorem pay (x : FVec Ideal S5000x128 .f32) (w : FVec Ideal S128x128 .f32) (j : S5000x128.Idx) :
    k4_pay1 (F := Ideal) x w j = ∑ k : Fin 128, x (lblk j k) * w (rblk j k) := by
  unfold k4_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lblk j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rblk j k := funext fun a => Fin.ext (by
    match a with
    | ⟨0, _⟩ => exact (rhs_0 _ _).trans hk
    | ⟨1, _⟩ => exact rhs_1 _ _)
  rw [el, er]
  -- the rounding to bf16 is the identity here; a same-shape cast in front of it, where the body has one, too
  first | rfl | (rw [shapeCast_self]; rfl)

/-! ## The whole arrays' product -/

/-- Entry (row of `i`, `k`) of the left array. -/
abbrev lrow (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of the right array. -/
abbrev rcol (i : S100000x128.Idx) (k : Fin 128) : S128x128.Idx := fun a => match a with
  | ⟨0, _⟩ => ⟨k.val, k.isLt⟩
  | ⟨1, _⟩ => ⟨(i 1).val, (i 1).isLt⟩

/-- The product of a 100000×128 array with a 128×128 array, index by index. -/
def prod (X : FVec Ideal S100000x128 .f32) (Wt : FVec Ideal S128x128 .f32) : FVec Ideal S100000x128 .f32 :=
  fun i => ∑ k : Fin 128, X (lrow i k) * Wt (rcol i k)

theorem hz : (![0, 0] : Fin 2 → Nat) = fun _ => 0 := funext fun a => by fin_cases a <;> rfl

/-- The printed index maps over the grid: the left and the output windows move together down the rows and stay at
    column block 0; the right window stays at block (0, 0). -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 19 :=
  (by decide +kernel : ∀ t : Fin grid4.N, _)

/-- Every row block is some point's. -/
theorem idx_onto : ∀ q0 : Fin 20, ∃ t : Fin cfg4.N, win4_2.index t = ![q0.val, 0] :=
  (by decide +kernel : ∀ q0 : Fin 20, ∃ t : Fin grid4.N, win4_2.index t = ![q0.val, 0])

variable (V : (c : Dev nD) → (b : Ref sig .tc) → Buf (Elt Ideal) ((c : Thread nD τ).loc b))

/-- The left array as the region finds it. -/
abbrev XA (c : Dev nD) : FVec Ideal S100000x128 .f32 := V c main_arg0
/-- The right array as the region finds it. -/
abbrev WA (c : Dev nD) : FVec Ideal S128x128 .f32 := V c main_arg7

/-- What point `t` writes back is its block of the two arrays' product. -/
theorem flushed_eq (c : Dev nD) (t : Fin cfg4.N) :
    (dat4 V c).flushed 2 t = ((cfg4.win 2).blk t).view.read (Elt Ideal) (prod (XA V c) (WA V c)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  show k4_pay1 (iblk4 V c 0 t) (iblk4 V c 1 t) j = prod (XA V c) (WA V c) (((cfg4.win 2).blk t).view.emb j)
  refine (pay _ _ j).trans ?_
  unfold prod
  refine Finset.sum_congr rfl fun k _ => ?_
  show XA V c (((cfg4.win 0).blk t).view.emb (lblk j k)) * WA V c (((cfg4.win 1).blk t).view.emb (rblk j k))
    = XA V c (lrow (((cfg4.win 2).blk t).view.emb j) k) * WA V c (rcol (((cfg4.win 2).blk t).view.emb j) k)
  have h0 : ((cfg4.win 0).blk t).view.emb (lblk j k) = lrow (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (rblk j k) = rcol (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [h0, h1]

/-- An index of the output array is in point `t`'s block iff each coordinate is in the block's range. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- The twenty row blocks cover the output array: row `r` is in the block of point `r / 5000`. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE OUTPUT ARRAY after the region: the product of the two input arrays as the region found them. -/
theorem value (c : Dev nD) : (dat4 V c).arrAt 2 cfg4.N = prod (XA V c) (WA V c) :=
  (dat4 V c).arrAt_eq_of_cover 2 _ (fun t _ => flushed_eq V c t) cover

end Cert.KernelIdeal.Linear4

end
-- ==== Proof.BiasRelu1.lean ====
/-
  Region 1 of the idealized kernel's @main: add a bias row and clamp below at zero. Each of the 20 grid points
  reads rows 5000·t … 5000·t + 4999 of the input array and the whole 128-entry bias, and writes to the same rows
  of the output max(input(r, n) + bias(n), 0). Once every point has written its rows back the output array is
  that function of the two arrays, index by index — stated for ANY contents `V` of the buffers at the region's
  entry.
-/
import proofs.«166528_j45346264711451_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The body's stored value at an index of its block -/

/-- The bias entry under column `j 1` of a block. -/
abbrev colb (j : S5000x128.Idx) : S128.Idx := ix1 (⟨(j 1).val, (j 1).isLt⟩ : Fin 128)

/-- Entry `j` of the stored block: the input's entry plus the bias of its column, clamped below at zero. -/
theorem pay (x : FVec Ideal S5000x128 .f32) (b : FVec Ideal S128 .f32) (j : S5000x128.Idx) :
    k1_pay1 (F := Ideal) x b j = max (x j + b (colb j)) (Ideal.ofBits .f32 0x00000000#32) := by
  obtain ⟨p, q, rfl⟩ : ∃ (p : Fin 5000) (q : Fin 128), j = ix2 p q := ⟨j 0, j 1, eq_ix2 j⟩
  unfold k1_pay1
  have h1 : shapeCast S5000x128 x shapeCasts_S5000x128_S5000x128 = x := shapeCast_self _ _
  have h2 : broadcastTo S5000x128 (shapeCast S1x128 b shapeCasts_S128_S1x128) broadcasts_S1x128_S5000x128 (ix2 p q) = b (ix1 q) :=
    (broadcastTo_1b_ab_apply _ _ p q).trans (shapeCast_a_1a_apply b _ 0 q)
  show max (shapeCast S5000x128 x shapeCasts_S5000x128_S5000x128 (ix2 p q)
      + broadcastTo S5000x128 (shapeCast S1x128 b shapeCasts_S128_S1x128) broadcasts_S1x128_S5000x128 (ix2 p q)) (Ideal.ofBits .f32 0x00000000#32) = _
  rw [h1, h2]

/-! ## The whole array -/

/-- The bias entry under column `i 1` of the array. -/
abbrev col (i : S100000x128.Idx) : S128.Idx := ix1 (⟨(i 1).val, (i 1).isLt⟩ : Fin 128)

/-- Bias added along the rows, then the clamp at zero, index by index. -/
def biasRelu (A : FVec Ideal S100000x128 .f32) (b : FVec Ideal S128 .f32) : FVec Ideal S100000x128 .f32 :=
  fun i => max (A i + b (col i)) (Ideal.ofBits .f32 0x00000000#32)

theorem hz : (![0, 0] : Fin 2 → Nat) = fun _ => 0 := funext fun a => by fin_cases a <;> rfl
theorem hz1 : (![0] : Fin 1 → Nat) = fun _ => 0 := funext fun a => by fin_cases a; rfl

/-- The printed index maps over the grid: the input and the output windows move together down the rows at column
    block 0; the bias window stays at block 0. -/
theorem idx_facts : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 19 :=
  (by decide +kernel : ∀ t : Fin grid1.N, _)

/-- Every row block is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt Ideal) ((c : Thread nD τ).loc b))

/-- The input array as the region finds it. -/
abbrev AA (c : Dev nD) : FVec Ideal S100000x128 .f32 := V c main_v43
/-- The bias as the region finds it. -/
abbrev BB (c : Dev nD) : FVec Ideal S128 .f32 := V c main_arg4

/-- What point `t` writes back is its block of the biased, clamped array. -/
theorem flushed_eq (c : Dev nD) (t : Fin cfg1.N) :
    (dat1 V c).flushed 2 t = ((cfg1.win 2).blk t).view.read (Elt Ideal) (biasRelu (AA V c) (BB V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128) hz1]
  obtain ⟨e0, e1, e2, e3, e4⟩ := idx_facts t
  funext j
  show k1_pay1 (iblk1 V c 0 t) (iblk1 V c 1 t) j = biasRelu (AA V c) (BB V c) (((cfg1.win 2).blk t).view.emb j)
  refine (pay _ _ j).trans ?_
  show max (AA V c (((cfg1.win 0).blk t).view.emb j) + BB V c (((cfg1.win 1).blk t).view.emb (colb j))) (Ideal.ofBits .f32 0x00000000#32)
    = max (AA V c (((cfg1.win 2).blk t).view.emb j) + BB V c (col (((cfg1.win 2).blk t).view.emb j))) (Ideal.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (colb j) = col (((cfg1.win 2).blk t).view.emb j) := by
    funext a; apply Fin.ext
    match a with
    | ⟨0, _⟩ => show win1_1.index t (0 : Fin 1) * 128 + 1 * (j 1).val = win1_2.index t (1 : Fin 2) * 128 + 1 * (j 1).val; omega
  rw [h0, h1]

/-- An index of the output array is in point `t`'s block iff each coordinate is in the block's range. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- The twenty row blocks cover the output array: row `r` is in the block of point `r / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the input plus the bias along the rows, clamped below at zero. -/
theorem value (c : Dev nD) : (dat1 V c).arrAt 2 cfg1.N = biasRelu (AA V c) (BB V c) :=
  (dat1 V c).arrAt_eq_of_cover 2 _ (fun t _ => flushed_eq V c t) cover

end Cert.KernelIdeal.BiasRelu1

end
-- ==== Proof.BiasRelu3.lean ====
/-
  Region 3 of the idealized kernel's @main: add a bias row and clamp below at zero. Each of the 20 grid points
  reads rows 5000·t … 5000·t + 4999 of the input array and the whole 128-entry bias, and writes to the same rows
  of the output max(input(r, n) + bias(n), 0). Once every point has written its rows back the output array is
  that function of the two arrays, index by index — stated for ANY contents `V` of the buffers at the region's
  entry.
-/
import proofs.«166528_j45346264711451_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu3

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The body's stored value at an index of its block -/

/-- The bias entry under column `j 1` of a block. -/
abbrev colb (j : S5000x128.Idx) : S128.Idx := ix1 (⟨(j 1).val, (j 1).isLt⟩ : Fin 128)

/-- Entry `j` of the stored block: the input's entry plus the bias of its column, clamped below at zero. -/
theorem pay (x : FVec Ideal S5000x128 .f32) (b : FVec Ideal S128 .f32) (j : S5000x128.Idx) :
    k3_pay1 (F := Ideal) x b j = max (x j + b (colb j)) (Ideal.ofBits .f32 0x00000000#32) := by
  obtain ⟨p, q, rfl⟩ : ∃ (p : Fin 5000) (q : Fin 128), j = ix2 p q := ⟨j 0, j 1, eq_ix2 j⟩
  unfold k3_pay1
  have h1 : shapeCast S5000x128 x shapeCasts_S5000x128_S5000x128 = x := shapeCast_self _ _
  have h2 : broadcastTo S5000x128 (shapeCast S1x128 b shapeCasts_S128_S1x128) broadcasts_S1x128_S5000x128 (ix2 p q) = b (ix1 q) :=
    (broadcastTo_1b_ab_apply _ _ p q).trans (shapeCast_a_1a_apply b _ 0 q)
  show max (shapeCast S5000x128 x shapeCasts_S5000x128_S5000x128 (ix2 p q)
      + broadcastTo S5000x128 (shapeCast S1x128 b shapeCasts_S128_S1x128) broadcasts_S1x128_S5000x128 (ix2 p q)) (Ideal.ofBits .f32 0x00000000#32) = _
  rw [h1, h2]

/-! ## The whole array -/

/-- The bias entry under column `i 1` of the array. -/
abbrev col (i : S100000x128.Idx) : S128.Idx := ix1 (⟨(i 1).val, (i 1).isLt⟩ : Fin 128)

/-- Bias added along the rows, then the clamp at zero, index by index. -/
def biasRelu (A : FVec Ideal S100000x128 .f32) (b : FVec Ideal S128 .f32) : FVec Ideal S100000x128 .f32 :=
  fun i => max (A i + b (col i)) (Ideal.ofBits .f32 0x00000000#32)

theorem hz : (![0, 0] : Fin 2 → Nat) = fun _ => 0 := funext fun a => by fin_cases a <;> rfl
theorem hz1 : (![0] : Fin 1 → Nat) = fun _ => 0 := funext fun a => by fin_cases a; rfl

/-- The printed index maps over the grid: the input and the output windows move together down the rows at column
    block 0; the bias window stays at block 0. -/
theorem idx_facts : ∀ t : Fin cfg3.N, win3_0.index t (0 : Fin 2) = win3_2.index t (0 : Fin 2)
    ∧ win3_0.index t (1 : Fin 2) = 0
    ∧ win3_1.index t (0 : Fin 1) = 0
    ∧ win3_2.index t (1 : Fin 2) = 0
    ∧ win3_2.index t (0 : Fin 2) ≤ 19 :=
  (by decide +kernel : ∀ t : Fin grid3.N, _)

/-- Every row block is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

variable (V : (c : Dev nD) → (b : Ref sig .tc) → Buf (Elt Ideal) ((c : Thread nD τ).loc b))

/-- The input array as the region finds it. -/
abbrev AA (c : Dev nD) : FVec Ideal S100000x128 .f32 := V c main_v58
/-- The bias as the region finds it. -/
abbrev BB (c : Dev nD) : FVec Ideal S128 .f32 := V c main_arg6

/-- What point `t` writes back is its block of the biased, clamped array. -/
theorem flushed_eq (c : Dev nD) (t : Fin cfg3.N) :
    (dat3 V c).flushed 2 t = ((cfg3.win 2).blk t).view.read (Elt Ideal) (biasRelu (AA V c) (BB V c)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128) hz1]
  obtain ⟨e0, e1, e2, e3, e4⟩ := idx_facts t
  funext j
  show k3_pay1 (iblk3 V c 0 t) (iblk3 V c 1 t) j = biasRelu (AA V c) (BB V c) (((cfg3.win 2).blk t).view.emb j)
  refine (pay _ _ j).trans ?_
  show max (AA V c (((cfg3.win 0).blk t).view.emb j) + BB V c (((cfg3.win 1).blk t).view.emb (colb j))) (Ideal.ofBits .f32 0x00000000#32)
    = max (AA V c (((cfg3.win 2).blk t).view.emb j) + BB V c (col (((cfg3.win 2).blk t).view.emb j))) (Ideal.ofBits .f32 0x00000000#32)
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (colb j) = col (((cfg3.win 2).blk t).view.emb j) := by
    funext a; apply Fin.ext
    match a with
    | ⟨0, _⟩ => show win3_1.index t (0 : Fin 1) * 128 + 1 * (j 1).val = win3_2.index t (1 : Fin 2) * 128 + 1 * (j 1).val; omega
  rw [h0, h1]

/-- An index of the output array is in point `t`'s block iff each coordinate is in the block's range. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- The twenty row blocks cover the output array: row `r` is in the block of point `r / 5000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after the region: the input plus the bias along the rows, clamped below at zero. -/
theorem value (c : Dev nD) : (dat3 V c).arrAt 2 cfg3.N = biasRelu (AA V c) (BB V c) :=
  (dat3 V c).arrAt_eq_of_cover 2 _ (fun t _ => flushed_eq V c t) cover

end Cert.KernelIdeal.BiasRelu3

end
-- ==== Proof.Final5.lean ====
/-
  Region 5 of the idealized kernel's @main: the residual sum. Each of the 20 grid points reads rows
  5000·t … 5000·t + 4999 of two arrays and the whole 128-entry bias, and writes to the same rows of the output
  (first(r, n) + second(r, n)) + bias(n). Once every point has written its rows back the output array is that
  function of the three arrays, index by index — stated for ANY contents `V` of the buffers at the region's entry.
-/
import proofs.«166528_j45346264711451_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final5

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The body's stored value at an index of its block -/

/-- The bias entry under column `j 1` of a block. -/
abbrev colb (j : S5000x128.Idx) : S128.Idx := ix1 (⟨(j 1).val, (j 1).isLt⟩ : Fin 128)

/-- Entry `j` of the stored block: the two inputs' entries added, then the bias of the column. -/
theorem pay (x y : FVec Ideal S5000x128 .f32) (b : FVec Ideal S128 .f32) (j : S5000x128.Idx) :
    k5_pay1 (F := Ideal) x y b j = x j + y j + b (colb j) := by
  obtain ⟨p, q, rfl⟩ : ∃ (p : Fin 5000) (q : Fin 128), j = ix2 p q := ⟨j 0, j 1, eq_ix2 j⟩
  unfold k5_pay1
  have h1 : shapeCast S5000x128 x shapeCasts_S5000x128_S5000x128 = x := shapeCast_self _ _
  have h1' : shapeCast S5000x128 y shapeCasts_S5000x128_S5000x128 = y := shapeCast_self _ _
  have h2 : broadcastTo S5000x128 (shapeCast S1x128 b shapeCasts_S128_S1x128) broadcasts_S1x128_S5000x128 (ix2 p q) = b (ix1 q) :=
    (broadcastTo_1b_ab_apply _ _ p q).trans (shapeCast_a_1a_apply b _ 0 q)
  show shapeCast S5000x128 x shapeCasts_S5000x128_S5000x128 (ix2 p q) + shapeCast S5000x128 y shapeCasts_S5000x128_S5000x128 (ix2 p q)
      + broadcastTo S5000x128 (shapeCast S1x128 b shapeCasts_S128_S1x128) broadcasts_S1x128_S5000x128 (ix2 p q) = _
  rw [h1, h1', h2]

/-! ## The whole array -/

/-- The bias entry under column `i 1` of the array. -/
abbrev col (i : S100000x128.Idx) : S128.Idx := ix1 (⟨(i 1).val, (i 1).isLt⟩ : Fin 128)

/-- The two arrays added, then the bias along the rows, index by index. -/
def sum3 (A Q : FVec Ideal S100000x128 .f32) (b : FVec Ideal S128 .f32) : FVec Ideal S100000x128 .f32 :=
  fun i => A i + Q i + b (col i)

theorem hz : (![0, 0] : Fin 2 → Nat) = fun _ => 0 := funext fun a => by fin_cases a <;> rfl
theorem hz1 : (![0] : Fin 1 → Nat) = fun _ => 0 := funext fun a => by fin_cases a; rfl

/-- The printed index maps over the grid: both inputs and the output move together down the rows at column block 0;
    the bias window stays at block 0. -/
theorem idx_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 1) = 0
    ∧ win5_3.index t (1 : Fin 2) = 0
    ∧ win5_3.index t (0 : Fin 2) ≤ 19 :=
  (by decide +kernel : ∀ t : Fin grid5.N, _)

/-- Every row block is some point's. -/
theorem idx_onto : ∀ q0 : Fin 20, ∃ t : Fin cfg5.N, win5_3.index t = ![q0.val, 0] :=
  (by decide +kernel : ∀ q0 : Fin 20, ∃ t : Fin grid5.N, win5_3.index t = ![q0.val, 0])

variable (V : (c : Dev nD) → (b : Ref sig .tc) → Buf (Elt Ideal) ((c : Thread nD τ).loc b))

/-- The first input array as the region finds it. -/
abbrev AA (c : Dev nD) : FVec Ideal S100000x128 .f32 := V c main_v59
/-- The second input array as the region finds it. -/
abbrev QQ (c : Dev nD) : FVec Ideal S100000x128 .f32 := V c main_v60
/-- The bias as the region finds it. -/
abbrev BB (c : Dev nD) : FVec Ideal S128 .f32 := V c main_arg8

/-- What point `t` writes back is its block of the three arrays' sum. -/
theorem flushed_eq (c : Dev nD) (t : Fin cfg5.N) :
    (dat5 V c).flushed 3 t = ((cfg5.win 3).blk t).view.read (Elt Ideal) (sum3 (AA V c) (QQ V c) (BB V c)) := by
  show (cfg5.win 3).cut (grid5.coords t) ((dat5 V c).after 3 t) = _
  rw [after5_3]
  unfold out5_3
  rw [View.canon_unit_zero hz]
  simp only [View.ld_unit_zero (S := S5000x128) hz, View.ld_unit_zero (S := S128) hz1]
  obtain ⟨e0, e1, e2, e3, e4, e5, e6⟩ := idx_facts t
  funext j
  show k5_pay1 (iblk5 V c 0 t) (iblk5 V c 1 t) (iblk5 V c 2 t) j = sum3 (AA V c) (QQ V c) (BB V c) (((cfg5.win 3).blk t).view.emb j)
  refine (pay _ _ _ j).trans ?_
  show AA V c (((cfg5.win 0).blk t).view.emb j) + QQ V c (((cfg5.win 1).blk t).view.emb j) + BB V c (((cfg5.win 2).blk t).view.emb (colb j))
    = AA V c (((cfg5.win 3).blk t).view.emb j) + QQ V c (((cfg5.win 3).blk t).view.emb j) + BB V c (col (((cfg5.win 3).blk t).view.emb j))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 128 + 1 * (j 1).val = win5_3.index t (1 : Fin 2) * 128 + 1 * (j 1).val; omega
  have h2 : ((cfg5.win 2).blk t).view.emb (colb j) = col (((cfg5.win 3).blk t).view.emb j) := by
    funext a; apply Fin.ext
    match a with
    | ⟨0, _⟩ => show win5_2.index t (0 : Fin 1) * 128 + 1 * (j 1).val = win5_3.index t (1 : Fin 2) * 128 + 1 * (j 1).val; omega
  rw [h0, h1, h2]

/-- An index of the output array is in point `t`'s block iff each coordinate is in the block's range. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v61).slice (win5_3.rect t)).set ↔ _
  rw [View.set_slice_whole, Rect.mem_set_unit]
  exact Iff.rfl

/-- The twenty row blocks cover the output array: row `r` is in the block of point `r / 5000`. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- THE OUTPUT ARRAY after the region: the two arrays added, then the bias along the rows. -/
theorem value (c : Dev nD) : (dat5 V c).arrAt 3 cfg5.N = sum3 (AA V c) (QQ V c) (BB V c) :=
  (dat5 V c).arrAt_eq_of_cover 3 _ (fun t _ => flushed_eq V c t) cover

end Cert.KernelIdeal.Final5

end
-- ==== Proof.Bridge.lean ====
/-
  Each pallas_call's whole-array function is the reference's stage, on the extended reals, index by index:
  the row-tiled product is the host's `dot_general` (both the sum over k of left(r, k) · right(k, n)); the bias added
  along the rows and clamped at zero is the host's broadcast, add and maximum with a zero array; and the
  kernel's (h + p) + b is the reference's h + (p + b), addition of extended reals being associative.
-/
import proofs.«166528_j45346264711451_1_alg».proof.Proof.Linear0
import proofs.«166528_j45346264711451_1_alg».proof.Proof.Linear2
import proofs.«166528_j45346264711451_1_alg».proof.Proof.Linear4
import proofs.«166528_j45346264711451_1_alg».proof.Proof.BiasRelu1
import proofs.«166528_j45346264711451_1_alg».proof.Proof.BiasRelu3
import proofs.«166528_j45346264711451_1_alg».proof.Proof.Final5
import proofs.«166528_j45346264711451_1_alg».proof.Proof.RefRead

set_option maxRecDepth 16384

noncomputable section

namespace Cert.KernelIdeal.Bridge

open Cert.KernelIdeal
open Idealize.ShloMosaic Idealize.ShloMosaic.TcCoe Idealize.SL.Sem
open Cert.ReferenceIdeal.ReadP

variable (x0 : (⟨S100000x128, .f32⟩ : BufTy).Contents (Elt Ideal)) (x1 : (⟨S2x1600000, .i32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal)) (x8 : (⟨S128, .f32⟩ : BufTy).Contents (Elt Ideal))

/-! ## The three products -/

/-- Layer 1's product x · W1. -/
theorem prod0_eq : Linear0.prod x0 x3 = val_main_v30 (F := Ideal) x0 x3 := by
  funext i
  rw [val_main_v30_apply]
  show ∑ k : Fin 128, x0 (Linear0.lrow i k) * x3 (Linear0.rcol i k) = _
  refine Finset.sum_congr rfl fun k _ => ?_
  have el : Linear0.lrow i k = lidx_main_v30 i k := funext fun a => Fin.ext (by match a with | ⟨0, _⟩ => rfl | ⟨1, _⟩ => rfl)
  have er : Linear0.rcol i k = ridx_main_v30 i k := funext fun a => Fin.ext (by match a with | ⟨0, _⟩ => rfl | ⟨1, _⟩ => rfl)
  rw [el, er]

/-- Layer 2's product h1 · W2, h1 the reference's first hidden layer. -/
theorem prod2_eq : Linear2.prod (val_main_v47 (F := Ideal) x0 x1 x3 x4) x5 = val_main_v48 (F := Ideal) x0 x1 x3 x4 x5 := by
  funext i
  rw [val_main_v48_apply]
  show ∑ k : Fin 128, val_main_v47 (F := Ideal) x0 x1 x3 x4 (Linear2.lrow i k) * x5 (Linear2.rcol i k) = _
  refine Finset.sum_congr rfl fun k _ => ?_
  have el : Linear2.lrow i k = lidx_main_v48 i k := funext fun a => Fin.ext (by match a with | ⟨0, _⟩ => rfl | ⟨1, _⟩ => rfl)
  have er : Linear2.rcol i k = ridx_main_v48 i k := funext fun a => Fin.ext (by match a with | ⟨0, _⟩ => rfl | ⟨1, _⟩ => rfl)
  rw [el, er]

/-- The residual projection x · Wp. -/
theorem prod4_eq : Linear4.prod x0 x7 = val_main_v66 (F := Ideal) x0 x7 := by
  funext i
  rw [val_main_v66_apply]
  show ∑ k : Fin 128, x0 (Linear4.lrow i k) * x7 (Linear4.rcol i k) = _
  refine Finset.sum_congr rfl fun k _ => ?_
  have el : Linear4.lrow i k = lidx_main_v66 i k := funext fun a => Fin.ext (by match a with | ⟨0, _⟩ => rfl | ⟨1, _⟩ => rfl)
  have er : Linear4.rcol i k = ridx_main_v66 i k := funext fun a => Fin.ext (by match a with | ⟨0, _⟩ => rfl | ⟨1, _⟩ => rfl)
  rw [el, er]

/-! ## Bias and clamp -/

/-- Layer 1: the aggregated array plus b1 along the rows, clamped at zero. -/
theorem biasRelu1_eq : BiasRelu1.biasRelu (val_main_v43 (F := Ideal) x0 x1 x3) x4 = val_main_v47 (F := Ideal) x0 x1 x3 x4 := by
  funext i
  have e : idx_main_v44 (idx_main_v45 i) = BiasRelu1.col i := funext fun a => Fin.ext (by match a with | ⟨0, _⟩ => rfl)
  rw [val_main_v47_apply, val_main_v46_apply, val_main_v45_apply, val_main_v44_apply, val_main_call1_v0_apply, val_main_call1_cst_apply, e]
  rfl

/-- Layer 2: the aggregated array plus b2 along the rows, clamped at zero. -/
theorem biasRelu3_eq : BiasRelu3.biasRelu (val_main_v61 (F := Ideal) x0 x1 x3 x4 x5) x6 = val_main_v65 (F := Ideal) x0 x1 x3 x4 x5 x6 := by
  funext i
  have e : idx_main_v62 (idx_main_v63 i) = BiasRelu3.col i := funext fun a => Fin.ext (by match a with | ⟨0, _⟩ => rfl)
  rw [val_main_v65_apply, val_main_v64_apply, val_main_v63_apply, val_main_v62_apply, val_main_call2_v0_apply, val_main_call2_cst_apply, e]
  rfl

/-! ## The residual sum -/

/-- (h2 + x · Wp) + bp is h2 + (x · Wp + bp). -/
theorem sum3_eq : Final5.sum3 (val_main_v65 (F := Ideal) x0 x1 x3 x4 x5 x6) (val_main_v66 (F := Ideal) x0 x7) x8
    = val_main_v70 (F := Ideal) x0 x1 x3 x4 x5 x6 x7 x8 := by
  funext i
  have e : idx_main_v67 (idx_main_v68 i) = Final5.col i := funext fun a => Fin.ext (by match a with | ⟨0, _⟩ => rfl)
  rw [val_main_v70_apply, val_main_v69_apply, val_main_v68_apply, val_main_v67_apply, e]
  exact add_assoc _ _ _

end Cert.KernelIdeal.Bridge

end
-- ==== Proof.Chain.lean ====
/-
  The contents of the idealized kernel's buffers at the boundaries of @main's items, walked forward from the launch:
  at each boundary the buffer a pallas_call or a host stretch has just written holds the reference's stage of the
  same name, as a function of the argument arrays. A region's output is its whole-array function of the arrays it
  found at its entry (the region modules), which is the reference's stage (Bridge); a host stretch is the reference's
  own operations (HostChain); and a buffer an item does not write keeps what it held, so that the edge lists, the
  normalisation and the arguments reach the items that read them. The last boundary's result buffer is the
  reference's result term.
-/
import proofs.«166528_j45346264711451_1_alg».proof.Proof.Gen.KernelIdeal.Frame
import proofs.«166528_j45346264711451_1_alg».proof.Proof.HostChain
import proofs.«166528_j45346264711451_1_alg».proof.Proof.Bridge

set_option maxRecDepth 16384

noncomputable section

namespace Cert.KernelIdeal.Chain

open Cert.KernelIdeal Cert.KernelIdeal.Gen
open Idealize.ShloMosaic Idealize.ShloMosaic.TcCoe Idealize.SL.Sem
open Cert.ReferenceIdeal.ReadP (val_main_v3 val_main_v6 val_main_v29 val_main_v30 val_main_v43 val_main_v47 val_main_v48
  val_main_v61 val_main_v65 val_main_v66 val_main_v70)

variable (m : (ℓ : Loc nD τ sig) → Buf (Elt Ideal) ℓ) (ρ : Dev nD → PrngReg) (c : Dev nD)

/-! ## Before the first call -/

/-- A buffer none of the three first stretches writes holds at region 0's entry what it was launched with. -/
theorem W3_keep (r : Ref sig .tc) (h0 : r ∉ HostChain.wr0) (h1 : r ∉ HostChain.wr0_1) (h2 : r ∉ HostChain.wr0_2) :
    W3 m ρ c (Proc.devRef .tc r) = W0 m ρ c (Proc.devRef .tc r) :=
  (HostChain.keep0_2 _ r h2).trans ((HostChain.keep0_1 _ r h1).trans (HostChain.keep0 _ r h0))

theorem W3_src : W3 m ρ c (Proc.devRef .tc main_v3) = val_main_v3 (F := Ideal) (m ((c : Thread nD τ).loc main_arg1)) :=
  (HostChain.keep0_2 _ main_v3 (by decide)).trans ((HostChain.keep0_1 _ main_v3 (by decide)).trans (HostChain.src_eq (W0 m ρ c)))
theorem W3_dst : W3 m ρ c (Proc.devRef .tc main_v6) = val_main_v6 (F := Ideal) (m ((c : Thread nD τ).loc main_arg1)) :=
  (HostChain.keep0_2 _ main_v6 (by decide)).trans ((HostChain.keep0_1 _ main_v6 (by decide)).trans (HostChain.dst_eq (W0 m ρ c)))
theorem W3_norm : W3 m ρ c (Proc.devRef .tc main_v29) = val_main_v29 (F := Ideal) (m ((c : Thread nD τ).loc main_arg1)) :=
  HostChain.norm_eq (W0 m ρ c)

/-! ## Layer 1 -/

/-- Region 0 leaves x · W1. -/
theorem W4_v30 : W4 m ρ c (Proc.devRef .tc main_v30) = val_main_v30 (F := Ideal) (m ((c : Thread nD τ).loc main_arg0)) (m ((c : Thread nD τ).loc main_arg3)) := by
  refine (W4_arr m ρ c 2).trans ((Linear0.value (V3 m ρ) c).trans ?_)
  have hx : Linear0.XA (V3 m ρ) c = (m ((c : Thread nD τ).loc main_arg0)) := W3_keep m ρ c main_arg0 (by decide) (by decide) (by decide)
  have hw : Linear0.WA (V3 m ρ) c = (m ((c : Thread nD τ).loc main_arg3)) := W3_keep m ρ c main_arg3 (by decide) (by decide) (by decide)
  rw [hx, hw]
  exact Bridge.prod0_eq _ _

theorem W4_src : W4 m ρ c (Proc.devRef .tc main_v3) = val_main_v3 (F := Ideal) (m ((c : Thread nD τ).loc main_arg1)) :=
  (W4_of_ne m ρ c main_v3 (by decide)).trans (W3_src m ρ c)
theorem W4_dst : W4 m ρ c (Proc.devRef .tc main_v6) = val_main_v6 (F := Ideal) (m ((c : Thread nD τ).loc main_arg1)) :=
  (W4_of_ne m ρ c main_v6 (by decide)).trans (W3_dst m ρ c)
theorem W4_norm : W4 m ρ c (Proc.devRef .tc main_v29) = val_main_v29 (F := Ideal) (m ((c : Thread nD τ).loc main_arg1)) :=
  (W4_of_ne m ρ c main_v29 (by decide)).trans (W3_norm m ρ c)

/-- The first aggregation. -/
theorem W5_v43 : W5 m ρ c (Proc.devRef .tc main_v43) = val_main_v43 (F := Ideal) (m ((c : Thread nD τ).loc main_arg0)) (m ((c : Thread nD τ).loc main_arg1)) (m ((c : Thread nD τ).loc main_arg3)) :=
  HostChain.agg1_eq (W4 m ρ c) (m ((c : Thread nD τ).loc main_arg0)) (m ((c : Thread nD τ).loc main_arg1)) (m ((c : Thread nD τ).loc main_arg3)) (W4_v30 m ρ c) (W4_src m ρ c) (W4_dst m ρ c) (W4_norm m ρ c)

/-- A buffer neither region 0 nor the stretch after it touches: region 1's entry to region 0's entry. -/
theorem W5_keep (r : Ref sig .tc) (h1 : r ∉ HostChain.wr1) (h0 : ∀ w, Pipeline.arrRef spec0 w ≠ r) :
    W5 m ρ c (Proc.devRef .tc r) = W3 m ρ c (Proc.devRef .tc r) :=
  (HostChain.keep1 _ r h1).trans (W4_of_ne m ρ c r h0)

/-- Region 1 leaves the first hidden layer. -/
theorem W6_v44 : W6 m ρ c (Proc.devRef .tc main_v44) = val_main_v47 (F := Ideal) (m ((c : Thread nD τ).loc main_arg0)) (m ((c : Thread nD τ).loc main_arg1)) (m ((c : Thread nD τ).loc main_arg3)) (m ((c : Thread nD τ).loc main_arg4)) := by
  refine (W6_arr m ρ c 2).trans ((BiasRelu1.value (V5 m ρ) c).trans ?_)
  have ha : BiasRelu1.AA (V5 m ρ) c = val_main_v43 (F := Ideal) (m ((c : Thread nD τ).loc main_arg0)) (m ((c : Thread nD τ).loc main_arg1)) (m ((c : Thread nD τ).loc main_arg3)) := W5_v43 m ρ c
  have hb : BiasRelu1.BB (V5 m ρ) c = (m ((c : Thread nD τ).loc main_arg4)) :=
    (W5_keep m ρ c main_arg4 (by decide) (by decide)).trans (W3_keep m ρ c main_arg4 (by decide) (by decide) (by decide))
  rw [ha, hb]
  exact Bridge.biasRelu1_eq _ _ _ _

/-! ## Layer 2 -/

/-- A buffer regions 0 and 1 and the stretch between them do not touch: region 2's entry to region 0's entry. -/
theorem W6_keep (r : Ref sig .tc) (h6 : ∀ w, Pipeline.arrRef spec1 w ≠ r) (h1 : r ∉ HostChain.wr1) (h0 : ∀ w, Pipeline.arrRef spec0 w ≠ r) :
    W6 m ρ c (Proc.devRef .tc r) = W3 m ρ c (Proc.devRef .tc r) :=
  (W6_of_ne m ρ c r h6).trans (W5_keep m ρ c r h1 h0)

/-- Region 2 leaves h1 · W2. -/
theorem W7_v45 : W7 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ((Linear2.value (V6 m ρ) c).trans ?_)
  have hx : Linear2.XA (V6 m ρ) c = val_main_v47 (F := Ideal) (m ((c : Thread nD τ).loc main_arg0)) (m ((c : Thread nD τ).loc main_arg1)) (m ((c : Thread nD τ).loc main_arg3)) (m ((c : Thread nD τ).loc main_arg4)) := W6_v44 m ρ c
  have hw : Linear2.WA (V6 m ρ) c = (m ((c : Thread nD τ).loc main_arg5)) :=
    (W6_keep m ρ c main_arg5 (by decide) (by decide) (by decide)).trans (W3_keep m ρ c main_arg5 (by decide) (by decide) (by decide))
  rw [hx, hw]
  exact Bridge.prod2_eq _ _ _ _ _

/-- A buffer regions 0, 1, 2 and the stretch between them do not touch: region 2's exit to region 0's entry. -/
theorem W7_keep (r : Ref sig .tc) (h7 : ∀ w, Pipeline.arrRef spec2 w ≠ r) (h6 : ∀ w, Pipeline.arrRef spec1 w ≠ r)
    (h1 : r ∉ HostChain.wr1) (h0 : ∀ w, Pipeline.arrRef spec0 w ≠ r) :
    W7 m ρ c (Proc.devRef .tc r) = W3 m ρ c (Proc.devRef .tc r) :=
  (W7_of_ne m ρ c r h7).trans (W6_keep m ρ c r h6 h1 h0)

/-- The second aggregation. -/
theorem W8_v58 : W8 m ρ c (Proc.devRef .tc main_v58) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  HostChain.agg2_eq (W7 m ρ c) (m ((c : Thread nD τ).loc main_arg0)) (m ((c : Thread nD τ).loc main_arg1)) (m ((c : Thread nD τ).loc main_arg3)) (m ((c : Thread nD τ).loc main_arg4)) (m ((c : Thread nD τ).loc main_arg5)) (W7_v45 m ρ c)
    ((W7_keep m ρ c main_v3 (by decide) (by decide) (by decide) (by decide)).trans (W3_src m ρ c))
    ((W7_keep m ρ c main_v6 (by decide) (by decide) (by decide) (by decide)).trans (W3_dst m ρ c))
    ((W7_keep m ρ c main_v29 (by decide) (by decide) (by decide) (by decide)).trans (W3_norm m ρ c))

/-- Region 3's entry to region 0's entry, for a buffer nothing in between touches. -/
theorem W8_keep (r : Ref sig .tc) (h3 : r ∉ HostChain.wr3) (h7 : ∀ w, Pipeline.arrRef spec2 w ≠ r) (h6 : ∀ w, Pipeline.arrRef spec1 w ≠ r)
    (h1 : r ∉ HostChain.wr1) (h0 : ∀ w, Pipeline.arrRef spec0 w ≠ r) :
    W8 m ρ c (Proc.devRef .tc r) = W3 m ρ c (Proc.devRef .tc r) :=
  (HostChain.keep3 _ r h3).trans (W7_keep m ρ c r h7 h6 h1 h0)

/-- Region 3 leaves the second hidden layer. -/
theorem W9_v59 : W9 m ρ c (Proc.devRef .tc main_v59) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W9_arr m ρ c 2).trans ((BiasRelu3.value (V8 m ρ) c).trans ?_)
  have ha : BiasRelu3.AA (V8 m ρ) c = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := W8_v58 m ρ c
  have hb : BiasRelu3.BB (V8 m ρ) c = (m ((c : Thread nD τ).loc main_arg6)) :=
    (W8_keep m ρ c main_arg6 (by decide) (by decide) (by decide) (by decide) (by decide)).trans
      (W3_keep m ρ c main_arg6 (by decide) (by decide) (by decide))
  rw [ha, hb]
  exact Bridge.biasRelu3_eq _ _ _ _ _ _

/-! ## The residual projection and the sum -/

/-- Region 4's entry to region 0's entry, for a buffer nothing in between touches. -/
theorem W9_keep (r : Ref sig .tc) (h9 : ∀ w, Pipeline.arrRef spec3 w ≠ r) (h3 : r ∉ HostChain.wr3) (h7 : ∀ w, Pipeline.arrRef spec2 w ≠ r)
    (h6 : ∀ w, Pipeline.arrRef spec1 w ≠ r) (h1 : r ∉ HostChain.wr1) (h0 : ∀ w, Pipeline.arrRef spec0 w ≠ r) :
    W9 m ρ c (Proc.devRef .tc r) = W3 m ρ c (Proc.devRef .tc r) :=
  (W9_of_ne m ρ c r h9).trans (W8_keep m ρ c r h3 h7 h6 h1 h0)

/-- The feature array at region 4's entry: region 0 read it through an input window and left it as it was; nothing
    else touches it. -/
theorem W9_arg0 : W9 m ρ c (Proc.devRef .tc main_arg0) = (m ((c : Thread nD τ).loc main_arg0)) :=
  calc W9 m ρ c (Proc.devRef .tc main_arg0)
    _ = W8 m ρ c (Proc.devRef .tc main_arg0) := W9_of_ne m ρ c main_arg0 (by decide)
    _ = W7 m ρ c (Proc.devRef .tc main_arg0) := HostChain.keep3 _ main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := HostChain.keep1 _ main_arg0 (by decide)
    _ = W3 m ρ c (Proc.devRef .tc main_arg0) := (W4_arr m ρ c 0).trans (((dat0 (V3 m ρ) c).arrAt_in 0 rfl _).trans (A_eq0 (V3 m ρ) c 0))
    _ = (m ((c : Thread nD τ).loc main_arg0)) := W3_keep m ρ c main_arg0 (by decide) (by decide) (by decide)

/-- Region 4 leaves x · Wp. -/
theorem W10_v60 : W10 m ρ c (Proc.devRef .tc main_v60) = val_main_v66 (F := Ideal) (m ((c : Thread nD τ).loc main_arg0)) (m ((c : Thread nD τ).loc main_arg7)) := by
  refine (W10_arr m ρ c 2).trans ((Linear4.value (V9 m ρ) c).trans ?_)
  have hx : Linear4.XA (V9 m ρ) c = (m ((c : Thread nD τ).loc main_arg0)) := W9_arg0 m ρ c
  have hw : Linear4.WA (V9 m ρ) c = (m ((c : Thread nD τ).loc main_arg7)) :=
    (W9_keep m ρ c main_arg7 (by decide) (by decide) (by decide) (by decide) (by decide) (by decide)).trans
      (W3_keep m ρ c main_arg7 (by decide) (by decide) (by decide))
  rw [hx, hw]
  exact Bridge.prod4_eq _ _

/-- Region 5 leaves the reference's result. -/
theorem W11_v61 : W11 m ρ c (Proc.devRef .tc main_v61) = val_main_v70 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ((Final5.value (V10 m ρ) c).trans ?_)
  have ha : Final5.AA (V10 m ρ) c = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
    (W10_of_ne m ρ c main_v59 (by decide)).trans (W9_v59 m ρ c)
  have hq : Final5.QQ (V10 m ρ) c = val_main_v66 (F := Ideal) (m ((c : Thread nD τ).loc main_arg0)) (m ((c : Thread nD τ).loc main_arg7)) := W10_v60 m ρ c
  have hb : Final5.BB (V10 m ρ) c = (m ((c : Thread nD τ).loc main_arg8)) :=
    (W10_of_ne m ρ c main_arg8 (by decide)).trans
      ((W9_keep m ρ c main_arg8 (by decide) (by decide) (by decide) (by decide) (by decide) (by decide)).trans
        (W3_keep m ρ c main_arg8 (by decide) (by decide) (by decide)))
  rw [ha, hq, hb]
  exact Bridge.sum3_eq _ _ _ _ _ _ _ _

end Cert.KernelIdeal.Chain

end
-- ==== Proof.lean ====
/-
  A two-layer graph convolution with a residual projection, against its jnp reference, over the extended reals.

  Both programs compute, from node features x, an edge array and three weight/bias pairs,
      relu(A (relu(A (x W1) + b1) W2) + b2) + (x Wp + bp),
  where A is the normalised adjacency with self loops: rows gathered at the edges' sources, scaled by
  deg^(-1/2) at both endpoints, and scatter-added at the destinations. The kernel computes the three matrix
  products, the two bias-and-clamp steps and the final sum in six row-tiled pallas_calls (20 tiles of 5000 rows);
  everything else — the edge lists, the degrees, the normalisation, both gather/scale/scatter passes — is the same
  host operations in both programs, in the same order.

  So the two results agree stage by stage: each tiled product is the host's dot_general (a sum over the 128 inner
  indices of the same products; the kernel's rounding of its operands to bf16 is the identity on the extended
  reals and its accumulator starts at zero); bias-and-clamp is the host's broadcast, add and maximum with zero;
  the host stretches are shared; and the kernel's (h2 + x Wp) + bp is the reference's h2 + (x Wp + bp) because
  addition of extended reals is associative. No step needs the inputs to be finite.

  The three frames: the kernel's two are the generated frame certificates; the reference has no kernel, and its
  frame is its run with the result dropped. The idealization rewrote nothing, so `preserves` holds trivially.
-/
import proofs.«166528_j45346264711451_1_alg».proof.Defs
import proofs.«166528_j45346264711451_1_alg».proof.Proof.Gen.Kernel
import proofs.«166528_j45346264711451_1_alg».proof.Proof.Gen.Kernel.Frame
import proofs.«166528_j45346264711451_1_alg».proof.Proof.Gen.KernelIdeal
import proofs.«166528_j45346264711451_1_alg».proof.Proof.Gen.KernelIdeal.Frame
import proofs.«166528_j45346264711451_1_alg».proof.Proof.Gen.ReferenceIdeal
import proofs.«166528_j45346264711451_1_alg».proof.Proof.Gen.Pre_finite_inputs
import proofs.«166528_j45346264711451_1_alg».proof.Proof.RunNamed
import proofs.«166528_j45346264711451_1_alg».proof.Proof.RefRun
import proofs.«166528_j45346264711451_1_alg».proof.Proof.RefRead
import proofs.«166528_j45346264711451_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: it runs, and its run leaves the arguments as they were. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the same result array: the kernel's last boundary holds, at its result buffer, the
    reference's result term of the kernel's arguments, and the reference's arguments are the kernel's. -/
theorem algebraic : Cert.algebraic_KernelIdeal_ReferenceIdeal := by
  intro m ρ m' ρ' _ hagree
  refine ⟨fun c => Cert.KernelIdeal.Gen.W11 m ρ c (Proc.devRef .tc Cert.KernelIdeal.main_v61),
    Cert.KernelIdeal.RunV.run_main m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v70_eq, h0, h1, h3, h4, h5, h6, h7, h8]
  exact (Cert.KernelIdeal.Chain.W11_v61 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
